-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S8192x1024 : Shape := ⟨2, ![8192, 1024]⟩
abbrev S8192 : Shape := ⟨1, ![8192]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S512x4096 .f32) (main_arg1 : IVec S8192x1024 32) (main_arg2 : FVec F S8192 .f32) (main_arg3 : FVec F S8192 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S512x4096 : Shape := ⟨2, ![512, 4096]⟩
abbrev S8192x1024 : Shape := ⟨2, ![8192, 1024]⟩
abbrev S8192 : Shape := ⟨1, ![8192]⟩
abbrev S512x1024x4 : Shape := ⟨3, ![512, 1024, 4]⟩
abbrev S512x4x1024 : Shape := ⟨3, ![512, 4, 1024]⟩
abbrev S1x8192 : Shape := ⟨2, ![1, 8192]⟩
abbrev S512x8192 : Shape := ⟨2, ![512, 8192]⟩
abbrev S512x1024 : Shape := ⟨2, ![512, 1024]⟩
abbrev S1x512 : Shape := ⟨2, ![1, 512]⟩
abbrev S512x512 : Shape := ⟨2, ![512, 512]⟩

abbrev nBuf : Space → Nat
  | .hbm => 11
  | .vmem => 9
  | .smem => 0
  | _ => 0

abbrev bufTy : (tb : Table) → Fin (tcTables nBuf tb) → BufTy
  | .hbm, ⟨0, _⟩ => ⟨S512x4096, .f32⟩
  | .hbm, ⟨1, _⟩ => ⟨S8192x1024, .i32⟩
  | .hbm, ⟨2, _⟩ => ⟨S8192, .f32⟩
  | .hbm, ⟨3, _⟩ => ⟨S8192, .f32⟩
  | .hbm, ⟨4, _⟩ => ⟨S512x1024x4, .f32⟩
  | .hbm, ⟨5, _⟩ => ⟨S512x4x1024, .f32⟩
  | .hbm, ⟨6, _⟩ => ⟨S512x4096, .f32⟩
  | .hbm, ⟨7, _⟩ => ⟨S512x4096, .bf16⟩
  | .hbm, ⟨8, _⟩ => ⟨S1x8192, .f32⟩
  | .hbm, ⟨9, _⟩ => ⟨S1x8192, .f32⟩
  | .hbm, ⟨10, _⟩ => ⟨S512x8192, .f32⟩
  | .local _ .vmem, ⟨0, _⟩ => ⟨S512x4096, .bf16⟩
  | .local _ .vmem, ⟨1, _⟩ => ⟨S512x1024, .i32⟩
  | .local _ .vmem, ⟨2, _⟩ => ⟨S512x1024, .i32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S512x4096_S512x1024x4 : S512x4096.ShapeCasts S512x1024x4
  transposes_S512x1024x4_S512x4x1024_0_2_1 : S512x1024x4.Transposes [0, 2, 1] S512x4x1024
  shapeCasts_S512x4x1024_S512x4096 : S512x4x1024.ShapeCasts S512x4096
  bitsLt_bf16_f32 : FTy.bits .bf16 < FTy.bits .f32
  shapeCasts_S8192_S1x8192 : S8192.ShapeCasts S1x8192
  inb_S512x1024_S512x1024_0_0 : ∀ a, (![0, 0] : Fin 2 → Nat) a + S512x1024.size a ≤ S512x1024.size a
  h_S512x1024 : 0 < S512x1024.numel
  inb_S512x4096_S512x1024_0_0 : ∀ a, (![0, 0] : Fin 2 → Nat) a + S512x1024.size a ≤ S512x4096.size a
  shapeCasts_S512x1024_S512x1024 : S512x1024.ShapeCasts S512x1024
  inb_S512x4096_S512x1024_0_1024 : ∀ a, (![0, 1024] : Fin 2 → Nat) a + S512x1024.size a ≤ S512x4096.size a
  inb_S512x4096_S512x1024_0_2048 : ∀ a, (![0, 2048] : Fin 2 → Nat) a + S512x1024.size a ≤ S512x4096.size a
  inb_S512x4096_S512x1024_0_3072 : ∀ a, (![0, 3072] : Fin 2 → Nat) a + S512x1024.size a ≤ S512x4096.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x4096.size a
  hwx0_0 : ∀ i : grid0.Coords, EltTy.bits .bf16 = 32 ∨ (Rect.block (s := S512x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .i32 = 32 ∨ (Rect.block (s := S8192x1024) S512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x8192.size a
  hwx0_4 : ∀ i : grid0.Coords, EltTy.bits .f32 = 32 ∨ (Rect.block (s := S512x8192) S512x512.size (cc0_transform_4 i) (hinb0_4 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_v3) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x4096 : Shape := ⟨2, ![512, 4096]⟩
abbrev S8192x1024 : Shape := ⟨2, ![8192, 1024]⟩
abbrev S8192 : Shape := ⟨1, ![8192]⟩
abbrev S4 : Shape := ⟨1, ![4]⟩
abbrev S_ : Shape := ⟨0, ![]⟩
abbrev S8192x1024x1 : Shape := ⟨3, ![8192, 1024, 1]⟩
abbrev S1x1x4 : Shape := ⟨3, ![1, 1, 4]⟩
abbrev S8192x1024x4 : Shape := ⟨3, ![8192, 1024, 4]⟩
abbrev S8192x4096 : Shape := ⟨2, ![8192, 4096]⟩
abbrev S8192x1 : Shape := ⟨2, ![8192, 1]⟩
abbrev S4096x8192 : Shape := ⟨2, ![4096, 8192]⟩
abbrev S512x8192 : Shape := ⟨2, ![512, 8192]⟩
abbrev S1x8192 : Shape := ⟨2, ![1, 8192]⟩

abbrev nBuf : Space → Nat
  | .hbm => 40
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S8192x1024, .i32⟩
  | .hbm, ⟨2, _⟩ => ⟨S8192, .f32⟩
  | .hbm, ⟨3, _⟩ => ⟨S8192, .f32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S8192x1024x1, .i32⟩
  | .hbm, ⟨9, _⟩ => ⟨S1x1x4, .i32⟩
  | .hbm, ⟨10, _⟩ => ⟨S8192x1024x4, .i32⟩
  | .hbm, ⟨11, _⟩ => ⟨S8192x1024x4, .i32⟩
  | .hbm, ⟨12, _⟩ => ⟨S8192x1024x4, .i32⟩
  | .hbm, ⟨13, _⟩ => ⟨S_, .i32⟩
  | .hbm, ⟨14, _⟩ => ⟨S8192x1024x4, .i32⟩
  | .hbm, ⟨15, _⟩ => ⟨S8192x1024x4, .i32⟩
  | .hbm, ⟨16, _⟩ => ⟨S8192x4096, .i32⟩
  | .hbm, ⟨17, _⟩ => ⟨S_, .i32⟩
  | .hbm, ⟨18, _⟩ => ⟨S8192x4096, .i32⟩
  | .hbm, ⟨19, _⟩ => ⟨S8192x4096, .i1⟩
  | .hbm, ⟨20, _⟩ => ⟨S_, .i32⟩
  | .hbm, ⟨21, _⟩ => ⟨S8192x4096, .i32⟩
  | .hbm, ⟨22, _⟩ => ⟨S8192x4096, .i1⟩
  | .hbm, ⟨23, _⟩ => ⟨S_, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S_, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S8192x1, .f32⟩
  | .hbm, ⟨33, _⟩ => ⟨S8192x4096, .f32⟩
  | .hbm, ⟨34, _⟩ => ⟨S8192x4096, .f32⟩
  | .hbm, ⟨35, _⟩ => ⟨S4096x8192, .f32⟩
  | .hbm, ⟨36, _⟩ => ⟨S512x8192, .f32⟩
  | .hbm, ⟨37, _⟩ => ⟨S1x8192, .f32⟩
  | .hbm, ⟨38, _⟩ => ⟨S512x8192, .f32⟩
  | .hbm, ⟨39, _⟩ => ⟨S512x8192, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_cst_4 : Ref sig .tc := ⟨.hbm, 28, rfl⟩
abbrev main_call1_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S_S4 : S_.BroadcastsInDim S4 (![] : Fin 0 → Fin S4.rank)
  bcast_S8192x1024_S8192x1024x1_0_1 : S8192x1024.BroadcastsInDim S8192x1024x1 (![0, 1] : Fin 2 → Fin S8192x1024x1.rank)
  bcast_S4_S1x1x4_2 : S4.BroadcastsInDim S1x1x4 (![2] : Fin 1 → Fin S1x1x4.rank)
  bcast_S8192x1024x1_S8192x1024x4_0_1_2 : S8192x1024x1.BroadcastsInDim S8192x1024x4 (![0, 1, 2] : Fin 3 → Fin S8192x1024x4.rank)
  bcast_S1x1x4_S8192x1024x4_0_1_2 : S1x1x4.BroadcastsInDim S8192x1024x4 (![0, 1, 2] : Fin 3 → Fin S8192x1024x4.rank)
  bcast_S_S8192x1024x4 : S_.BroadcastsInDim S8192x1024x4 (![] : Fin 0 → Fin S8192x1024x4.rank)
  shapeCasts_S8192x1024x4_S8192x4096 : S8192x1024x4.ShapeCasts S8192x4096
  bcast_S_S8192x4096 : S_.BroadcastsInDim S8192x4096 (![] : Fin 0 → Fin S8192x4096.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  transposes_S8192x4096_S4096x8192_1_0 : S8192x4096.Transposes [1, 0] S4096x8192
  bcast_S8192_S1x8192_1 : S8192.BroadcastsInDim S1x8192 (![1] : Fin 1 → Fin S1x8192.rank)
  bcast_S1x8192_S512x8192_0_1 : S1x8192.BroadcastsInDim S512x8192 (![0, 1] : Fin 2 → Fin S512x8192.rank)
  dot_S512x4096_S4096x8192_S512x8192_1_0_0_1_n_n_wf : DotDims.WF S512x4096 S4096x8192 S512x8192 [1] [0] [0] [1] [] []

variable [Facts₀]

def dot_S512x4096_S4096x8192_S512x8192_1_0_0_1_n_n : DotDims S512x4096 S4096x8192 S512x8192 where
  lhsContracting := [1]
  rhsContracting := [0]
  lhsNonContracting := [0]
  rhsNonContracting := [1]
  lhsBatch := []
  rhsBatch := []
  wf := dot_S512x4096_S4096x8192_S512x8192_1_0_0_1_n_n_wf

class Facts : Prop extends Facts₀ where

variable [Facts]
-- ==== Proof.Ternary.lean ====
/-
  The two-bit ternary code of a packed weight word, and the weight it denotes.

  A packed word holds four two-bit codes; the code at plane `j` is the word shifted right (arithmetically) by `2 j`
  bits and masked with 3. Code 0 denotes the weight −1, code 2 the weight +1, codes 1 and 3 the weight 0.
  Two programs decode it differently: one tests the code's low bit and, when it is clear, converts `code − 1` to a
  float; the other compares the code with 2 and with 0 and selects among the float constants 1, −1 and 0. Both are
  the same real number `sgn code`, by inspection of the four possible codes.
-/
import Idealize.ShloMosaic.PureOps.Ideal
import Idealize.ShloMosaic.PureOps.Ideal.Laws
import Idealize.ShloMosaic.Lib.IdealHost
import Idealize.ShloMosaic.Lib.ValueIdx

noncomputable section

namespace Cert.Ternary

open Idealize.ShloMosaic

/-- The two-bit code a packed word carries at plane `j`: bits `2 j` and `2 j + 1`. -/
def codeAt (w : BitVec 32) (j : Fin 4) : BitVec 32 := (w.sshiftRight (2 * j.val)) &&& 3#32

/-- The ternary weight a two-bit code denotes: code 2 is +1, code 0 is −1, codes 1 and 3 are 0. -/
def sgn (b : BitVec 32) : ℝ := if b = 2#32 then 1 else if b = 0#32 then -1 else 0

/-- A word masked with 3 is one of the four codes. -/
theorem and3_cases (v : BitVec 32) :
    v &&& 3#32 = 0#32 ∨ v &&& 3#32 = 1#32 ∨ v &&& 3#32 = 2#32 ∨ v &&& 3#32 = 3#32 := by
  have h : (v &&& 3#32).toNat < 4 := by
    rw [BitVec.toNat_and]
    exact lt_of_le_of_lt Nat.and_le_right (by decide)
  generalize v &&& 3#32 = b at h
  rcases (show b.toNat = 0 ∨ b.toNat = 1 ∨ b.toNat = 2 ∨ b.toNat = 3 by omega) with h0 | h1 | h2 | h3
  · exact Or.inl (BitVec.eq_of_toNat_eq h0)
  · exact Or.inr (Or.inl (BitVec.eq_of_toNat_eq h1))
  · exact Or.inr (Or.inr (Or.inl (BitVec.eq_of_toNat_eq h2)))
  · exact Or.inr (Or.inr (Or.inr (BitVec.eq_of_toNat_eq h3)))

theorem codeAt_cases (w : BitVec 32) (j : Fin 4) :
    codeAt w j = 0#32 ∨ codeAt w j = 1#32 ∨ codeAt w j = 2#32 ∨ codeAt w j = 3#32 := and3_cases _

/-- The float pattern of minus one. -/
theorem ofBits_neg_one_f32 : Ideal.ofBits .f32 0xBF800000#32 = ((-1 : ℝ) : EReal) := by
  simp [Ideal.ofBits, Ideal.ieee, -EReal.coe_mul, -EReal.coe_neg]; norm_num

/-- Decoding by the low bit: when the code's low bit is clear the weight is `code − 1` as a signed integer, else 0. -/
theorem lowbit_decode (b : BitVec 32) (hb : b = 0#32 ∨ b = 1#32 ∨ b = 2#32 ∨ b = 3#32) :
    (((Scalar.select (IntOp.cmpi .eq (IntOp.andi b 1#32) 0#32) (IntOp.subi b 1#32) 0#32 : BitVec 32).toInt : ℝ) : EReal)
      = ((sgn b : ℝ) : EReal) := by
  rcases hb with rfl | rfl | rfl | rfl
  · have e : (Scalar.select (IntOp.cmpi .eq (IntOp.andi 0#32 1#32) 0#32) (IntOp.subi 0#32 1#32) 0#32 : BitVec 32).toInt = -1 := by decide
    rw [e]; unfold sgn; rw [if_neg (by decide), if_pos rfl]; norm_num
  · have e : (Scalar.select (IntOp.cmpi .eq (IntOp.andi 1#32 1#32) 0#32) (IntOp.subi 1#32 1#32) 0#32 : BitVec 32).toInt = 0 := by decide
    rw [e]; unfold sgn; rw [if_neg (by decide), if_neg (by decide)]; norm_num
  · have e : (Scalar.select (IntOp.cmpi .eq (IntOp.andi 2#32 1#32) 0#32) (IntOp.subi 2#32 1#32) 0#32 : BitVec 32).toInt = 1 := by decide
    rw [e]; unfold sgn; rw [if_pos rfl]; norm_num
  · have e : (Scalar.select (IntOp.cmpi .eq (IntOp.andi 3#32 1#32) 0#32) (IntOp.subi 3#32 1#32) 0#32 : BitVec 32).toInt = 0 := by decide
    rw [e]; unfold sgn; rw [if_neg (by decide), if_neg (by decide)]; norm_num

/-- Decoding by comparison: the constant 1 where the code is 2, else −1 where it is 0, else 0. -/
theorem compare_decode (b : BitVec 32) (hb : b = 0#32 ∨ b = 1#32 ∨ b = 2#32 ∨ b = 3#32) :
    Scalar.select (IntOp.cmpi .eq b 2#32) (Ideal.ofBits .f32 0x3F800000#32)
        (Scalar.select (IntOp.cmpi .eq b 0#32) (Ideal.ofBits .f32 0xBF800000#32) (Ideal.ofBits .f32 0x00000000#32))
      = ((sgn b : ℝ) : EReal) := by
  rw [Ideal.ofBits_one_f32, ofBits_neg_one_f32, Ideal.ofBits_zero_f32]
  rcases hb with rfl | rfl | rfl | rfl
  · rw [show IntOp.cmpi .eq 0#32 2#32 = 0#1 by decide, show IntOp.cmpi .eq 0#32 0#32 = 1#1 by decide,
      ValueIdx.select_zero, ValueIdx.select_one]
    unfold sgn; rw [if_neg (by decide), if_pos rfl]
  · rw [show IntOp.cmpi .eq 1#32 2#32 = 0#1 by decide, show IntOp.cmpi .eq 1#32 0#32 = 0#1 by decide,
      ValueIdx.select_zero, ValueIdx.select_zero]
    unfold sgn; rw [if_neg (by decide), if_neg (by decide)]; norm_num
  · rw [show IntOp.cmpi .eq 2#32 2#32 = 1#1 by decide, ValueIdx.select_one]
    unfold sgn; rw [if_pos rfl]; norm_num
  · rw [show IntOp.cmpi .eq 3#32 2#32 = 0#1 by decide, show IntOp.cmpi .eq 3#32 0#32 = 0#1 by decide,
      ValueIdx.select_zero, ValueIdx.select_zero]
    unfold sgn; rw [if_neg (by decide), if_neg (by decide)]; norm_num

/-- A vector-unit arithmetic shift by a literal plane offset, masked: the code at that plane. -/
theorem vector_code0 (w : BitVec 32) : IntOp.andi (IntOp.shrsi .vector w 0#32) 3#32 = codeAt w 0 := rfl
theorem vector_code1 (w : BitVec 32) : IntOp.andi (IntOp.shrsi .vector w 2#32) 3#32 = codeAt w 1 := rfl
theorem vector_code2 (w : BitVec 32) : IntOp.andi (IntOp.shrsi .vector w 4#32) 3#32 = codeAt w 2 := rfl
theorem vector_code3 (w : BitVec 32) : IntOp.andi (IntOp.shrsi .vector w 6#32) 3#32 = codeAt w 3 := rfl

/-- The host's arithmetic shift by `j · 2` (the plane index from an iota, doubled), masked: the code at plane `j`. -/
theorem host_code (w : BitVec 32) (j : Fin 4) :
    IntOp.andi (IntOp.shrsi .host w (IntOp.muli (BitVec.ofNat 32 j.val) 2#32)) 3#32 = codeAt w j := by
  fin_cases j <;> rfl

end Cert.Ternary

end
-- ==== Proof.Payload.lean ====
/-
  The kernel body's arithmetic at one index of its output block.

  The body takes a [512, 1024] block of packed words `P0` (512 weight rows), four [512, 1024] column slices
  `P1 … P4` of the permuted activations (one per plane), a [1, 512] slice of scales `P5`, and computes, at block
  index [p, q],
      ((((0 + Σ_k P1[p, k] · s₀[q, k]) + Σ_k P2[p, k] · s₁[q, k]) + Σ_k P3[p, k] · s₂[q, k]) + Σ_k P4[p, k] · s₃[q, k]) · P5[0, q]
  where s_j[q, k] is the ternary weight of word P0[q, k] at plane j: each plane's weights are decoded from the words
  by the low-bit test and converted to floats, and contracted with the plane's activations on the matrix unit into
  a zero accumulator (a plain sum at the ideal instance).
-/
import proofs.«420459_j43112881717530_3_alg».proof.Proof.Gen.KernelIdeal.Skeleton
import proofs.«420459_j43112881717530_3_alg».proof.Proof.Ternary
import Idealize.ShloMosaic.Lib.ValueIdx
import Idealize.ShloMosaic.Lib.Pipeline.Value
import Idealize.ShloMosaic.PureOps.Ideal.Laws

noncomputable section

namespace Cert.KernelSide

open Cert.KernelIdeal Cert.KernelIdeal.Gen Idealize.ShloMosaic Idealize.ShloMosaic.ValueIdx Cert.Ternary
open scoped BigOperators

/-! ## The contraction's operand indices -/

theorem lhs_axis0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_axis1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem rhs_axis0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_axis1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-! ## One plane -/

/-- The plane's weights as the body computes them from the packed words: shift by the plane's offset `sh`, mask
    with 3, and where the low bit is clear take `code − 1`, else 0; then convert to float. -/
def signVec (P0 : Vec Ideal S512x1024 .i32) (sh : BitVec 32) : FVec Ideal S512x1024 .bf16 :=
  sitofp .bf16 (select (cmpi .eq (andi (andi (shrsi P0 (broadcast S512x1024 sh)) (broadcast S512x1024 3#32)) (broadcast S512x1024 1#32)) (broadcast S512x1024 0#32))
    (subi (andi (shrsi P0 (broadcast S512x1024 sh)) (broadcast S512x1024 3#32)) (broadcast S512x1024 1#32)) (broadcast S512x1024 0#32))

/-- At an index it is the ternary weight of the word there at the plane whose offset `sh` is. -/
theorem signVec_apply (P0 : Vec Ideal S512x1024 .i32) (sh : BitVec 32) (j : Fin 4)
    (hj : ∀ w, IntOp.andi (IntOp.shrsi .vector w sh) 3#32 = codeAt w j) (i : S512x1024.Idx) :
    signVec P0 sh i = ((sgn (codeAt (P0 i) j) : ℝ) : EReal) := by
  show (((Scalar.select (IntOp.cmpi .eq (IntOp.andi (IntOp.andi (IntOp.shrsi .vector (P0 i) sh) 3#32) 1#32) 0#32)
    (IntOp.subi (IntOp.andi (IntOp.shrsi .vector (P0 i) sh) 3#32) 1#32) 0#32 : BitVec 32).toInt : ℝ) : EReal) = _
  rw [hj]
  exact lowbit_decode _ (codeAt_cases _ _)

/-- One plane's contraction into the zero accumulator, at block index [p, q]: the sum over the packed columns of
    the activation slice's row `p` against the ternary weights of weight row `q`. -/
theorem plane_apply (L : Vec Ideal S512x1024 .bf16) (P0 : Vec Ideal S512x1024 .i32) (sh : BitVec 32) (j : Fin 4)
    (hj : ∀ w, IntOp.andi (IntOp.shrsi .vector w sh) 3#32 = codeAt w j) (p q : Fin 512) :
    matmul (φ₁ := .bf16) (φ₂ := .bf16) dot_S512x1024_S512x1024_S512x512_1_1_0_0_n_n none (shapeCast S512x1024 L shapeCasts_S512x1024_S512x1024) (signVec P0 sh)
        (constant S512x512 .f32 0x00000000#32) (ix2 p q)
      = ∑ k : Fin 1024, L (ix2 p k) * ((sgn (codeAt (P0 (ix2 q k)) j) : ℝ) : EReal) := by
  rw [shapeCast_self]
  simp only [matmul]
  rw [Ideal.matmul_constant_zero_apply, ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 p q) ((contrEquiv1 dot_S512x1024_S512x1024_S512x512_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S512x1024_S512x1024_S512x512_1_1_0_0_n_n.rhsIdx (ix2 p q) ((contrEquiv1 dot_S512x1024_S512x1024_S512x512_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er, signVec_apply P0 sh j hj]

/-! ## The body's value -/

/-- The body's scaled accumulator as a tree of vector operations over the planes' weights. -/
theorem pay_tree (P0 : Vec Ideal S512x1024 .i32) (P1 P2 P3 P4 : Vec Ideal S512x1024 .bf16) (P5 : Vec Ideal S1x512 .f32) :
    k0_pay4 (F := Ideal) P0 (k0_pay2 P0 P1 P2) k0_pay3 P3 P4 P5
      = mulf (addf (addf (addf (addf (broadcast S512x512 (Scalar.ofBits (F := Ideal) .f32 0x00000000#32))
          (matmul (φ₁ := .bf16) (φ₂ := .bf16) dot_S512x1024_S512x1024_S512x512_1_1_0_0_n_n none (shapeCast S512x1024 P1 shapeCasts_S512x1024_S512x1024) (signVec P0 0#32) (constant S512x512 .f32 0x00000000#32)))
          (matmul (φ₁ := .bf16) (φ₂ := .bf16) dot_S512x1024_S512x1024_S512x512_1_1_0_0_n_n none (shapeCast S512x1024 P2 shapeCasts_S512x1024_S512x1024) (signVec P0 2#32) (constant S512x512 .f32 0x00000000#32)))
          (matmul (φ₁ := .bf16) (φ₂ := .bf16) dot_S512x1024_S512x1024_S512x512_1_1_0_0_n_n none (shapeCast S512x1024 P3 shapeCasts_S512x1024_S512x1024) (signVec P0 4#32) (constant S512x512 .f32 0x00000000#32)))
          (matmul (φ₁ := .bf16) (φ₂ := .bf16) dot_S512x1024_S512x1024_S512x512_1_1_0_0_n_n none (shapeCast S512x1024 P4 shapeCasts_S512x1024_S512x1024) (signVec P0 6#32) (constant S512x512 .f32 0x00000000#32)))
        (broadcastTo S512x512 (shapeCast S1x512 P5 shapeCasts_S1x512_S1x512) broadcasts_S1x512_S512x512) := rfl

/-- The scales' row broadcast down the block, read at [p, q]: the scale of column `q`. -/
theorem scale_apply (P5 : Vec Ideal S1x512 .f32) (p q : Fin 512) :
    broadcastTo S512x512 (shapeCast S1x512 P5 shapeCasts_S1x512_S1x512) broadcasts_S1x512_S512x512 (ix2 p q) = P5 (ix2 0 q) := by
  rw [shapeCast_self]
  exact broadcastTo_apply P5 _ (ix2 p q) (ix2 0 q) (fun a => match a with
    | ⟨0, _⟩ => by show 0 = if (1 : Nat) = 1 then 0 else p.val; rw [if_pos rfl]
    | ⟨1, _⟩ => by show q.val = if (512 : Nat) = 1 then 0 else q.val; rw [if_neg (by decide)])

/-- The body's scaled accumulator at block index [p, q]. -/
theorem pay_apply (P0 : Vec Ideal S512x1024 .i32) (P1 P2 P3 P4 : Vec Ideal S512x1024 .bf16) (P5 : Vec Ideal S1x512 .f32) (p q : Fin 512) :
    k0_pay4 (F := Ideal) P0 (k0_pay2 P0 P1 P2) k0_pay3 P3 P4 P5 (ix2 p q)
      = ((((0 + ∑ k : Fin 1024, P1 (ix2 p k) * ((sgn (codeAt (P0 (ix2 q k)) 0) : ℝ) : EReal))
          + ∑ k : Fin 1024, P2 (ix2 p k) * ((sgn (codeAt (P0 (ix2 q k)) 1) : ℝ) : EReal))
          + ∑ k : Fin 1024, P3 (ix2 p k) * ((sgn (codeAt (P0 (ix2 q k)) 2) : ℝ) : EReal))
          + ∑ k : Fin 1024, P4 (ix2 p k) * ((sgn (codeAt (P0 (ix2 q k)) 3) : ℝ) : EReal)) * P5 (ix2 0 q) := by
  rw [pay_tree, mulf_apply, addf_apply, addf_apply, addf_apply, addf_apply, scale_apply,
    plane_apply P1 P0 0#32 0 vector_code0, plane_apply P2 P0 2#32 1 vector_code1,
    plane_apply P3 P0 4#32 2 vector_code2, plane_apply P4 P0 6#32 3 vector_code3]
  show ((((Ideal.ofBits .f32 0x00000000#32 + _) + _) + _) + _) * _ = _
  rw [Ideal.ofBits_zero_f32]

end Cert.KernelSide

end
-- ==== Proof.Spec.lean ====
/-
  The specification: an int2 (ternary) weight matrix unpacked, scaled row by row, and multiplied into the activations.

  `x` is [512, 4096], the packed weights `w` are [8192, 1024] words of four two-bit codes each, `α` and `β` are
  [8192]. Feature `k = 4 kp + j` of weight row `n` is the code of word `w[n, kp]` at plane `j`, a weight in {−1, 0, +1}.
  The result is  G[p, n] = Σ_k x[p, k] · (wt[n, k] · α[n]) + β[n].

  The same number is also reached plane by plane, with the scale applied once to the accumulated sum:
      K[p, n] = ((((0 + S₀) + S₁) + S₂) + S₃) · α[n] + β[n],   S_j = Σ_kp x[p, 4 kp + j] · wt[n, 4 kp + j].
  The two agree when `x` and `α` are real (finite): the sum over the 4096 features regroups into the four planes,
  and a real factor distributes over a sum of reals. (On the extended reals the last step fails at infinities, which is
  why finiteness is used.)
-/
import Mathlib.Algebra.BigOperators.Fin
import Mathlib.Data.EReal.Operations
import Idealize.ShloMosaic.Lib.ValueIdx
import proofs.«420459_j43112881717530_3_alg».proof.Proof.Ternary

noncomputable section

namespace Cert.Spec

open Idealize.ShloMosaic Idealize.ShloMosaic.ValueIdx Cert.Ternary
open scoped BigOperators

abbrev SX : Shape := ⟨2, ![512, 4096]⟩
abbrev SW : Shape := ⟨2, ![8192, 1024]⟩
abbrev SV : Shape := ⟨1, ![8192]⟩
abbrev SO : Shape := ⟨2, ![512, 8192]⟩

/-- Feature `4 kp + j`: plane `j` of packed column `kp`. -/
def feat (kp : Fin 1024) (j : Fin 4) : Fin 4096 := ⟨kp.val * 4 + j.val, by omega⟩

/-- A feature is a packed column and a plane, and conversely. -/
def featEquiv : Fin 1024 × Fin 4 ≃ Fin 4096 where
  toFun p := feat p.1 p.2
  invFun k := (⟨k.val / 4, by omega⟩, ⟨k.val % 4, by omega⟩)
  left_inv p := by
    obtain ⟨⟨a, ha⟩, ⟨b, hb⟩⟩ := p
    exact Prod.ext (Fin.ext (by show (a * 4 + b) / 4 = a; omega)) (Fin.ext (by show (a * 4 + b) % 4 = b; omega))
  right_inv k := Fin.ext (by show k.val / 4 * 4 + k.val % 4 = k.val; omega)

/-- A sum over the features is the sum over the planes of the sums over the packed columns. -/
theorem sum_planes {M : Type*} [AddCommMonoid M] (g : Fin 4096 → M) :
    ∑ k, g k = ∑ j : Fin 4, ∑ kp : Fin 1024, g (feat kp j) := by
  rw [Finset.sum_comm, ← Fintype.sum_prod_type']
  exact (Fintype.sum_equiv featEquiv _ _ (fun _ => rfl)).symm

/-- The ternary weight at row `n`, feature `k`. -/
def wt (w : SW.Idx → BitVec 32) (n : Fin 8192) (k : Fin 4096) : ℝ :=
  sgn (codeAt (w (ix2 n (featEquiv.symm k).1)) (featEquiv.symm k).2)

theorem wt_feat (w : SW.Idx → BitVec 32) (n : Fin 8192) (kp : Fin 1024) (j : Fin 4) :
    wt w n (feat kp j) = sgn (codeAt (w (ix2 n kp)) j) := by
  unfold wt
  rw [show feat kp j = featEquiv (kp, j) from rfl, Equiv.symm_apply_apply]

/-- The result at row `p`, column `n`: the activations against the unpacked, row-scaled weights, plus the bias. -/
def Gat (x : SX.Idx → EReal) (w : SW.Idx → BitVec 32) (α β : SV.Idx → EReal) (p : Fin 512) (n : Fin 8192) : EReal :=
  (∑ k : Fin 4096, x (ix2 p k) * (((wt w n k : ℝ) : EReal) * α (ix1 n))) + β (ix1 n)

/-- The result, index by index. -/
def G (x : SX.Idx → EReal) (w : SW.Idx → BitVec 32) (α β : SV.Idx → EReal) : SO.Idx → EReal :=
  fun i => Gat x w α β (i 0) (i 1)

/-- One plane's partial product: row `p` of the activations at the plane's features against the plane's weights of row `n`. -/
def plane (x : SX.Idx → EReal) (w : SW.Idx → BitVec 32) (p : Fin 512) (n : Fin 8192) (j : Fin 4) : EReal :=
  ∑ kp : Fin 1024, x (ix2 p (feat kp j)) * ((sgn (codeAt (w (ix2 n kp)) j) : ℝ) : EReal)

/-- The result reached plane by plane, scaled once at the end. -/
def Kat (x : SX.Idx → EReal) (w : SW.Idx → BitVec 32) (α β : SV.Idx → EReal) (p : Fin 512) (n : Fin 8192) : EReal :=
  ((((0 + plane x w p n 0) + plane x w p n 1) + plane x w p n 2) + plane x w p n 3) * α (ix1 n) + β (ix1 n)

/-- The coercion of a finite real sum is the sum of the coercions. -/
theorem coe_sum {ι : Type*} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- Over real activations and real scales the plane-by-plane result is the specification. -/
theorem Kat_eq_Gat (x : SX.Idx → EReal) (w : SW.Idx → BitVec 32) (α β : SV.Idx → EReal)
    (hx : ∀ i, ∃ r : ℝ, x i = (r : EReal)) (hα : ∀ i, ∃ r : ℝ, α i = (r : EReal)) (p : Fin 512) (n : Fin 8192) :
    Kat x w α β p n = Gat x w α β p n := by
  choose xr hxr using hx
  choose ar har using hα
  unfold Kat Gat plane
  simp only [hxr, har, ← EReal.coe_mul, ← coe_sum, zero_add, ← EReal.coe_add]
  congr 2
  rw [sum_planes, Fin.sum_univ_four]
  simp only [wt_feat, add_mul, Finset.sum_mul, mul_assoc]

end Cert.Spec

end
-- ==== Proof.BlockValue.lean ====
/-
  What the kernel body leaves in its output block, as the plane-by-plane form of the specification.

  The block written at one grid point is the body's arithmetic over the point's input blocks: the whole permuted
  activations `x0` [512, 4096] (its four [512, 1024] column slices are the four planes' activations), the point's
  [512, 1024] block of packed words `x1`, and its [1, 512] slices of scales `x2` and biases `x3`. If the input
  blocks are the corresponding parts of arrays X, W, α, β — column `j · 1024 + kp` of `x0` being feature `4 kp + j`
  of X, row `q` of `x1` being row `n` of W, and entry `q` of `x2`, `x3` being entry `n` of α, β — then the block's
  entry [p, q] is the plane-by-plane result at [p, n].
-/
import proofs.«420459_j43112881717530_3_alg».proof.Proof.Gen.KernelIdeal.Value
import proofs.«420459_j43112881717530_3_alg».proof.Proof.Payload
import proofs.«420459_j43112881717530_3_alg».proof.Proof.Spec

noncomputable section

namespace Cert.KernelSide

open Cert.KernelIdeal Cert.KernelIdeal.Gen Idealize.ShloMosaic Idealize.ShloMosaic.ValueIdx Cert.Ternary Cert.Spec
open scoped BigOperators

theorem off_zero2 : (![0, 0] : Fin 2 → Nat) = fun _ => 0 := funext fun a => by fin_cases a <;> rfl

/-- A [512, 1024] column slice of the permuted activations starting at column `off`, read at [p, k]: column `off + k`. -/
theorem ld_cols (x0 : Vec Ideal S512x4096 .bf16) (off : ℕ) (inb : ∀ a, (![0, off] : Fin 2 → Nat) a + S512x1024.size a ≤ S512x4096.size a)
    (p : Fin 512) (k : Fin 1024) (cc : Fin 4096) (hc : cc.val = off + k.val) :
    View.ld x0 (Rect.unit (s := S512x4096) ![0, off] S512x1024.size inb) (ix2 p k) = x0 (ix2 p cc) := by
  show x0 ((Rect.unit (s := S512x4096) ![0, off] S512x1024.size inb).idx (ix2 p k)) = _
  congr 1
  funext a
  apply Fin.ext
  match a with
  | ⟨0, _⟩ => show 0 + 1 * p.val = p.val; omega
  | ⟨1, _⟩ => show off + 1 * k.val = cc.val; omega

/-- The block's entry [p, q] is the plane-by-plane result at [p, n] of the arrays the input blocks are parts of. -/
theorem out_eq_Kat (x0 : Vec Ideal S512x4096 .bf16) (x1 : Vec Ideal S512x1024 .i32) (x2 x3 : Vec Ideal S1x512 .f32)
    (Xa : SX.Idx → EReal) (Wa : SW.Idx → BitVec 32) (Aa Ba : SV.Idx → EReal) (p q : Fin 512) (n : Fin 8192)
    (h0 : ∀ (kp : Fin 1024) (j : Fin 4) (cc : Fin 4096), cc.val = j.val * 1024 + kp.val → x0 (ix2 p cc) = Xa (ix2 p (feat kp j)))
    (h1 : ∀ kp : Fin 1024, x1 (ix2 q kp) = Wa (ix2 n kp))
    (h2 : x2 (ix2 0 q) = Aa (ix1 n)) (h3 : x3 (ix2 0 q) = Ba (ix1 n)) :
    out0_4 x0 x1 x2 x3 (ix2 p q) = Kat Xa Wa Aa Ba p n := by
  unfold out0_4
  refine (Value.canon4_eq (F := Ideal) (View.ld x1 r0_0) (View.ld x0 r0_1) (View.ld x0 r0_2) (View.ld x0 r0_3) (View.ld x0 r0_4)
    (View.ld x2 r0_5) (View.ld x3 r0_5) (ix2 p q)).trans ?_
  show (k0_pay4 (F := Ideal) (View.ld x1 r0_0) (k0_pay2 (View.ld x1 r0_0) (View.ld x0 r0_1) (View.ld x0 r0_2)) k0_pay3
      (View.ld x0 r0_3) (View.ld x0 r0_4) (View.ld x2 r0_5) (Value.ix4_0 (ix2 p q))) + (View.ld x3 r0_5 (Value.ix4_1 (ix2 p q))) = _
  have i0 : Value.ix4_0 (ix2 p q) = ix2 p q := by
    funext a
    match a with
    | ⟨0, _⟩ => rfl
    | ⟨1, _⟩ => rfl
  have i1 : Value.ix4_1 (ix2 p q) = ix2 0 q := by
    funext a
    match a with
    | ⟨0, _⟩ => rfl
    | ⟨1, _⟩ => rfl
  rw [i0, i1, pay_apply]
  rw [View.ld_unit_zero (S := S512x1024) off_zero2, View.ld_unit_zero (S := S1x512) off_zero2, View.ld_unit_zero (S := S1x512) off_zero2]
  unfold Kat plane
  have s0 : ∀ k : Fin 1024, View.ld x0 r0_1 (ix2 p k) * ((sgn (codeAt (x1 (ix2 q k)) 0) : ℝ) : EReal)
      = Xa (ix2 p (feat k 0)) * ((sgn (codeAt (Wa (ix2 n k)) 0) : ℝ) : EReal) := fun k => by
    rw [h1 k, ← h0 k 0 ⟨0 + k.val, by omega⟩ (by show 0 + k.val = 0 * 1024 + k.val; omega)]
    exact congrArg (· * _) (ld_cols x0 0 _ p k _ rfl)
  have s1 : ∀ k : Fin 1024, View.ld x0 r0_2 (ix2 p k) * ((sgn (codeAt (x1 (ix2 q k)) 1) : ℝ) : EReal)
      = Xa (ix2 p (feat k 1)) * ((sgn (codeAt (Wa (ix2 n k)) 1) : ℝ) : EReal) := fun k => by
    rw [h1 k, ← h0 k 1 ⟨1024 + k.val, by omega⟩ (by show 1024 + k.val = 1 * 1024 + k.val; omega)]
    exact congrArg (· * _) (ld_cols x0 1024 _ p k _ rfl)
  have s2 : ∀ k : Fin 1024, View.ld x0 r0_3 (ix2 p k) * ((sgn (codeAt (x1 (ix2 q k)) 2) : ℝ) : EReal)
      = Xa (ix2 p (feat k 2)) * ((sgn (codeAt (Wa (ix2 n k)) 2) : ℝ) : EReal) := fun k => by
    rw [h1 k, ← h0 k 2 ⟨2048 + k.val, by omega⟩ (by show 2048 + k.val = 2 * 1024 + k.val; omega)]
    exact congrArg (· * _) (ld_cols x0 2048 _ p k _ rfl)
  have s3 : ∀ k : Fin 1024, View.ld x0 r0_4 (ix2 p k) * ((sgn (codeAt (x1 (ix2 q k)) 3) : ℝ) : EReal)
      = Xa (ix2 p (feat k 3)) * ((sgn (codeAt (Wa (ix2 n k)) 3) : ℝ) : EReal) := fun k => by
    rw [h1 k, ← h0 k 3 ⟨3072 + k.val, by omega⟩ (by show 3072 + k.val = 3 * 1024 + k.val; omega)]
    exact congrArg (· * _) (ld_cols x0 3072 _ p k _ rfl)
  rw [Finset.sum_congr rfl fun k _ => s0 k, Finset.sum_congr rfl fun k _ => s1 k, Finset.sum_congr rfl fun k _ => s2 k,
    Finset.sum_congr rfl fun k _ => s3 k, h2, h3]

end Cert.KernelSide

end
-- ==== Proof.KernelValue.lean ====
/-
  The kernel's result array is the specification.

  Before the launch the activations are permuted on the host: reshaped to [512, 1024, 4], the last two axes swapped,
  reshaped back to [512, 4096] (and narrowed, which is the identity on extended reals), so that column
  `j · 1024 + kp` of the permuted array is feature `4 kp + j` of the activations; the scales and biases become
  [1, 8192] rows. Grid point `t` (of 16) sees the whole permuted activations, rows `512 t … 512 t + 511` of the packed
  words, and columns `512 t …` of the scale and bias rows, and writes columns `512 t …` of the [512, 8192] result.
  So the block point `t` writes back is block `t` of the plane-by-plane result, which over real activations and
  scales is the specification; the sixteen blocks tile the result array.
-/
import proofs.«420459_j43112881717530_3_alg».proof.Proof.BlockValue
import Idealize.ShloMosaic.Lib.StableHlo.Run
import Idealize.ShloMosaic.Lib.Pipeline.Value

noncomputable section

namespace Cert.KernelSide

open Cert.KernelIdeal Cert.KernelIdeal.Gen Idealize.ShloMosaic Idealize.ShloMosaic.TcCoe Idealize.SL.Sem
open Idealize.ShloMosaic.StableHlo Idealize.ShloMosaic.ValueIdx Cert.Spec
open Idealize.ShloMosaic.Pipeline (Dat)

variable (m : (ℓ : Loc nD τ sig) → Buf (Elt Ideal) ℓ) (ρ : Dev nD → PrngReg)

/-! ## The arrays the region finds -/

/-- The permuted activations, as the host operations before the launch compute them. -/
theorem V_xperm (c : Dev nD) : (V m c main_v3 : S512x4096.Idx → EReal)
    = truncf (F := Ideal) (φ := .f32) .bf16 (shapeCast S512x4096 (transpose S512x4x1024 [0, 2, 1]
        (shapeCast S512x1024x4 (m ((c : Thread nD τ).loc main_arg0)) shapeCasts_S512x4096_S512x1024x4)
        transposes_S512x1024x4_S512x4x1024_0_2_1) shapeCasts_S512x4x1024_S512x4096) bitsLt_bf16_f32 := by
  dsimp only [V, hostOps0]; after_results; rfl

/-- The scales as a [1, 8192] row. -/
theorem V_scale (c : Dev nD) : (V m c main_v4 : S1x8192.Idx → EReal)
    = shapeCast S1x8192 (m ((c : Thread nD τ).loc main_arg2)) shapeCasts_S8192_S1x8192 := by
  dsimp only [V, hostOps0]; after_results; rfl

/-- The biases as a [1, 8192] row. -/
theorem V_bias (c : Dev nD) : (V m c main_v5 : S1x8192.Idx → EReal)
    = shapeCast S1x8192 (m ((c : Thread nD τ).loc main_arg3)) shapeCasts_S8192_S1x8192 := by
  dsimp only [V, hostOps0]; after_results; rfl

/-- Column `j · 1024 + kp` of the permuted activations is feature `4 kp + j`. -/
theorem xperm_apply (Xa : S512x4096.Idx → EReal) (p : Fin 512) (kp : Fin 1024) (j : Fin 4) (cc : Fin 4096)
    (hc : cc.val = j.val * 1024 + kp.val) :
    truncf (F := Ideal) (φ := .f32) .bf16 (shapeCast S512x4096 (transpose S512x4x1024 [0, 2, 1]
        (shapeCast S512x1024x4 Xa shapeCasts_S512x4096_S512x1024x4)
        transposes_S512x1024x4_S512x4x1024_0_2_1) shapeCasts_S512x4x1024_S512x4096) bitsLt_bf16_f32 (ix2 p cc)
      = Xa (ix2 p (feat kp j)) := by
  rw [truncf_apply]
  refine (shapeCast_apply _ _ (ix2 p cc) (ix3 p j kp) ?_).trans ?_
  · rw [Shape.rowMajor_val_three, Shape.rowMajor_val_two]
    show (p.val * 4 + j.val) * 1024 + kp.val = p.val * 4096 + cc.val
    omega
  refine (transpose_apply [0, 2, 1] _ _ (ix3 p j kp) (ix3 p kp j) (fun b => match b with
    | ⟨0, _⟩ => rfl
    | ⟨1, _⟩ => rfl
    | ⟨2, _⟩ => rfl)).trans ?_
  refine shapeCast_apply _ _ (ix3 p kp j) (ix2 p (feat kp j)) ?_
  rw [Shape.rowMajor_val_three, Shape.rowMajor_val_two]
  show p.val * 4096 + (kp.val * 4 + j.val) = (p.val * 1024 + kp.val) * 4 + j.val
  omega

/-- A vector as a one-row matrix, read at [0, n]. -/
theorem row_apply (v : S8192.Idx → EReal) (i : S1x8192.Idx) (n : Fin 8192) (hn : (i 1).val = n.val) :
    shapeCast S1x8192 v shapeCasts_S8192_S1x8192 i = v (ix1 n) := by
  refine shapeCast_apply _ _ i (ix1 n) ?_
  rw [Shape.rowMajor_val_one, Shape.rowMajor_val_two]
  have h0 : (i 0).val < 1 := (i 0).isLt
  show n.val = (i 0).val * 8192 + (i 1).val
  omega

/-! ## The windows' blocks at a grid point -/

/-- The printed index maps, decided over the sixteen points: the activations' window stays put, the packed words'
    moves down its rows, the scales', the biases' and the output's move along their columns. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- The activations' block is the whole permuted array. -/
theorem xblk_apply (c : Dev nD) (t : Fin cfg0.N) (p : Fin 512) (kp : Fin 1024) (j : Fin 4) (cc : Fin 4096)
    (hc : cc.val = j.val * 1024 + kp.val) :
    (iblk m c 0 t : Vec Ideal S512x4096 .bf16) (ix2 p cc) = m ((c : Thread nD τ).loc main_arg0) (ix2 p (feat kp j)) := by
  obtain ⟨e0, e1, -⟩ := idx_facts t
  show V m c main_v3 (((cfg0.win 0).blk t).view.emb (ix2 p cc)) = _
  have e : ((cfg0.win 0).blk t).view.emb (ix2 p cc) = (ix2 p cc : S512x4096.Idx) := by
    funext a; apply Fin.ext
    match a with
    | ⟨0, _⟩ => show win0_0.index t (0 : Fin 2) * 512 + 1 * p.val = p.val; rw [e0]; omega
    | ⟨1, _⟩ => show win0_0.index t (1 : Fin 2) * 4096 + 1 * cc.val = cc.val; rw [e1]; omega
  rw [e, V_xperm]
  exact xperm_apply _ p kp j cc hc

/-- The packed words' block at point `t` is rows `512 t …` of the packed weights. -/
theorem wblk_apply (c : Dev nD) (t : Fin cfg0.N) (q : Fin 512) (kp : Fin 1024) (n : Fin 8192) (hn : n.val = t.val * 512 + q.val) :
    (iblk m c 1 t : Vec Ideal S512x1024 .i32) (ix2 q kp) = m ((c : Thread nD τ).loc main_arg1) (ix2 n kp) := by
  obtain ⟨-, -, e2, e3, -⟩ := idx_facts t
  show V m c main_arg1 (((cfg0.win 1).blk t).view.emb (ix2 q kp)) = _
  rw [V_main_arg1]
  congr 1
  funext a; apply Fin.ext
  match a with
  | ⟨0, _⟩ => show win0_1.index t (0 : Fin 2) * 512 + 1 * q.val = n.val; rw [e2]; omega
  | ⟨1, _⟩ => show win0_1.index t (1 : Fin 2) * 1024 + 1 * kp.val = kp.val; rw [e3]; omega

/-- The scales' block at point `t` is entries `512 t …` of the scales. -/
theorem ablk_apply (c : Dev nD) (t : Fin cfg0.N) (q : Fin 512) (n : Fin 8192) (hn : n.val = t.val * 512 + q.val) :
    (iblk m c 2 t : Vec Ideal S1x512 .f32) (ix2 0 q) = m ((c : Thread nD τ).loc main_arg2) (ix1 n) := by
  obtain ⟨-, -, -, -, e4, e5, -⟩ := idx_facts t
  show V m c main_v4 (((cfg0.win 2).blk t).view.emb (ix2 0 q)) = _
  rw [V_scale]
  refine row_apply _ _ n ?_
  show win0_2.index t (1 : Fin 2) * 512 + 1 * q.val = n.val
  rw [e5]; omega

/-- The biases' block at point `t` is entries `512 t …` of the biases. -/
theorem bblk_apply (c : Dev nD) (t : Fin cfg0.N) (q : Fin 512) (n : Fin 8192) (hn : n.val = t.val * 512 + q.val) :
    (iblk m c 3 t : Vec Ideal S1x512 .f32) (ix2 0 q) = m ((c : Thread nD τ).loc main_arg3) (ix1 n) := by
  obtain ⟨-, -, -, -, -, -, e6, e7, -⟩ := idx_facts t
  show V m c main_v5 (((cfg0.win 3).blk t).view.emb (ix2 0 q)) = _
  rw [V_bias]
  refine row_apply _ _ n ?_
  show win0_3.index t (1 : Fin 2) * 512 + 1 * q.val = n.val
  rw [e7]; omega

/-! ## What a point writes back, and the array after the run -/

/-- The specification of the argument arrays as launched. -/
abbrev result (c : Dev nD) : S512x8192.Idx → EReal :=
  G (m ((c : Thread nD τ).loc main_arg0)) (m ((c : Thread nD τ).loc main_arg1)) (m ((c : Thread nD τ).loc main_arg2))
    (m ((c : Thread nD τ).loc main_arg3))

/-- WHAT POINT `t` WRITES BACK is block `t` of the specification, when the activations and the scales are real. -/
theorem flushed_eq (c : Dev nD)
    (hx : ∀ i, ∃ r : ℝ, m ((c : Thread nD τ).loc main_arg0) i = (r : EReal))
    (hα : ∀ i, ∃ r : ℝ, m ((c : Thread nD τ).loc main_arg2) i = (r : EReal)) (t : Fin cfg0.N) :
    (dats m 0 c).flushed 4 t = ((cfg0.win 4).blk t).view.read (Elt Ideal) (result m c) := by
  have ht : t.val < 16 := lt_of_lt_of_eq t.isLt N_0
  obtain ⟨-, -, -, -, -, -, -, -, e8, e9⟩ := idx_facts t
  rw [Value.flushed4]
  funext y
  obtain ⟨p, q, rfl⟩ : ∃ (p q : Fin 512), y = ix2 p q := ⟨y 0, y 1, eq_ix2 y⟩
  show out0_4 (iblk m c 0 t) (iblk m c 1 t) (iblk m c 2 t) (iblk m c 3 t) (ix2 p q)
    = result m c (((cfg0.win 4).blk t).view.emb (ix2 p q))
  have e : ((cfg0.win 4).blk t).view.emb (ix2 p q) = (ix2 p ⟨t.val * 512 + q.val, by omega⟩ : S512x8192.Idx) := by
    funext a; apply Fin.ext
    match a with
    | ⟨0, _⟩ => show win0_4.index t (0 : Fin 2) * 512 + 1 * p.val = p.val; rw [e8]; omega
    | ⟨1, _⟩ => show win0_4.index t (1 : Fin 2) * 512 + 1 * q.val = t.val * 512 + q.val; rw [e9]; omega
  rw [e]
  refine (out_eq_Kat (iblk m c 0 t) (iblk m c 1 t) (iblk m c 2 t) (iblk m c 3 t)
    (m ((c : Thread nD τ).loc main_arg0)) (m ((c : Thread nD τ).loc main_arg1)) (m ((c : Thread nD τ).loc main_arg2))
    (m ((c : Thread nD τ).loc main_arg3)) p q ⟨t.val * 512 + q.val, by omega⟩
    (fun kp j cc hc => xblk_apply m c t p kp j cc hc) (fun kp => wblk_apply m c t q kp _ rfl)
    (ablk_apply m c t q _ rfl) (bblk_apply m c t q _ rfl)).trans ?_
  exact Kat_eq_Gat _ _ _ _ hx hα p _

/-- Every index of the result array is in the block of the point that owns its column. -/
theorem mem_blk (t : Fin cfg0.N) (i : S512x8192.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v6).slice (win0_4.rect t)).set ↔ _
  rw [View.set_slice_whole, Rect.mem_set_unit]
  exact Iff.rfl

theorem cover (i : S512x8192.Idx) : ∃ t : Fin cfg0.N, (cfg0.win 4).flush t = true ∧ i ∈ ((cfg0.win 4).blk t).view.set := by
  have hi0 : (i 0).val < 512 := (i 0).isLt
  have hi1 : (i 1).val < 8192 := (i 1).isLt
  let t : Fin cfg0.N := ⟨(i 1).val / 512, by rw [show cfg0.N = 16 from N_0]; omega⟩
  obtain ⟨-, -, -, -, -, -, -, -, e8, e9⟩ := idx_facts t
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; rw [e8]; omega
  | ⟨1, _⟩ =>
    show win0_4.index t (1 : Fin 2) * 512 ≤ (i 1).val ∧ (i 1).val < win0_4.index t (1 : Fin 2) * 512 + 512
    rw [e9]; show (i 1).val / 512 * 512 ≤ (i 1).val ∧ (i 1).val < (i 1).val / 512 * 512 + 512; omega

/-- THE RESULT ARRAY after the run is the specification of the arguments. -/
theorem final (c : Dev nD)
    (hx : ∀ i, ∃ r : ℝ, m ((c : Thread nD τ).loc main_arg0) i = (r : EReal))
    (hα : ∀ i, ∃ r : ℝ, m ((c : Thread nD τ).loc main_arg2) i = (r : EReal)) :
    (dats m 0 c).arrAt 4 cfg0.N = result m c :=
  (dats m 0 c).arrAt_eq_of_cover 4 (result m c) (fun t _ => flushed_eq m c hx hα t) cover

/-- The kernel's run, with the result array named: the specification of the arguments, which end unchanged. -/
theorem run (hfin : ∀ c : Dev nD, (∀ i, ∃ r : ℝ, m ((c : Thread nD τ).loc main_arg0) i = (r : EReal))
      ∧ (∀ i, ∃ r : ℝ, m ((c : Thread nD τ).loc main_arg2) i = (r : EReal))) :
    θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hfin c).1 (hfin c).2), (h c).2⟩)
    (Value.run_blocks m ρ)

end Cert.KernelSide

end
-- ==== Proof.RefSide.lean ====
/-
  The reference program computes the specification.

  Read one operation at a time, the reference's result at [p, n] is  Σ_k x[p, k] · W[k, n] + bias[n], where the
  transposed, scaled weight W[k, n] is the unpacked weight of row n at feature k times α[n]. The unpacked weight is
  read from the packed word w[n, k / 4] shifted by (k mod 4) · 2 and masked, then decoded by comparing the code
  with 2 and with 0: the ternary weight of the specification.
-/
import proofs.«420459_j43112881717530_3_alg».proof.Proof.Gen.ReferenceIdeal.Read
import proofs.«420459_j43112881717530_3_alg».proof.Proof.Spec

noncomputable section

namespace Cert.RefSide

open Cert.ReferenceIdeal Cert.ReferenceIdeal.Read Idealize.ShloMosaic Idealize.ShloMosaic.ValueIdx
open Cert.Ternary Cert.Spec
open scoped BigOperators

/-- The transposed, scaled weight at [k, n]: the ternary weight of row `n` at feature `k`, times the row's scale. -/
theorem weight_apply (x1 : (⟨S8192x1024, .i32⟩ : BufTy).Contents (Elt Ideal)) (x2 : (⟨S8192, .f32⟩ : BufTy).Contents (Elt Ideal))
    (n : Fin 8192) (k : Fin 4096) :
    val_main_v21 (F := Ideal) x1 x2 (ix2 k n) = ((wt x1 n k : ℝ) : EReal) * x2 (ix1 n) := by
  have hI : idx_main_v3 (idx_main_v5 (idx_main_v10 (idx_main_v21 (ix2 k n)))) = ix2 n (featEquiv.symm k).1 := by
    funext a; apply Fin.ext
    match a with
    | ⟨0, _⟩ => show (n.val * 4096 + k.val) / 4096 = n.val; omega
    | ⟨1, _⟩ => show (n.val * 4096 + k.val) / 4 % 1024 = k.val / 4; omega
  have hJ : ((ix2 k n 1).val * 4096 + (ix2 k n 0).val) % 4 = ((featEquiv.symm k).2).val := by
    show (n.val * 4096 + k.val) % 4 = k.val % 4; omega
  have hN : idx_main_v18 (idx_main_v19 (idx_main_v21 (ix2 k n))) = ix1 n := by
    funext a
    match a with
    | ⟨0, _⟩ => rfl
  simp only [val_main_v21_apply, val_main_v20_apply, val_main_v17_apply, val_main_v16_apply, val_main_v12_apply,
    val_main_v15_apply, val_main_v14_apply, val_main_v10_apply, val_main_v9_apply, val_main_v7_apply, val_main_v5_apply,
    val_main_v3_apply, val_main_v6_apply, val_main_v4_apply, val_main_v2_apply, val_main_v0_apply, val_main_v1_apply,
    val_main_c_apply, val_main_v8_apply, val_main_c_0_apply, val_main_v11_apply, val_main_c_1_apply, val_main_v13_apply,
    val_main_c_2_apply, val_main_call1_v0_apply, val_main_cst_4_apply, val_main_call0_v0_apply, val_main_cst_apply,
    val_main_call0_v1_apply, val_main_cst_3_apply, val_main_v19_apply, val_main_v18_apply]
  rw [hI, hJ, hN, host_code]
  show Scalar.select (IntOp.cmpi .eq (codeAt (x1 (ix2 n (featEquiv.symm k).1)) (featEquiv.symm k).2) 2#32) (Ideal.ofBits .f32 0x3F800000#32)
      (Scalar.select (IntOp.cmpi .eq (codeAt (x1 (ix2 n (featEquiv.symm k).1)) (featEquiv.symm k).2) 0#32) (Ideal.ofBits .f32 0xBF800000#32) (Ideal.ofBits .f32 0x00000000#32))
      * x2 (ix1 n) = _
  rw [compare_decode _ (codeAt_cases _ _)]
  rfl

/-- The reference's result at [p, n] is the specification there. -/
theorem ref_at (x0 : (⟨S512x4096, .f32⟩ : BufTy).Contents (Elt Ideal)) (x1 : (⟨S8192x1024, .i32⟩ : BufTy).Contents (Elt Ideal))
    (x2 x3 : (⟨S8192, .f32⟩ : BufTy).Contents (Elt Ideal)) (p : Fin 512) (n : Fin 8192) :
    val_main_v25 (F := Ideal) x0 x1 x2 x3 (ix2 p n) = Gat x0 x1 x2 x3 p n := by
  rw [val_main_v25_apply, val_main_v22_apply, val_main_v24_apply, val_main_v23_apply]
  have hB : idx_main_v23 (idx_main_v24 (ix2 p n)) = ix1 n := by
    funext a
    match a with
    | ⟨0, _⟩ => rfl
  rw [hB]
  show (∑ k : Fin 4096, x0 (lidx_main_v22 (ix2 p n) k) * val_main_v21 (F := Ideal) x1 x2 (ridx_main_v22 (ix2 p n) k)) + x3 (ix1 n) = _
  unfold Gat
  congr 1
  refine Finset.sum_congr rfl fun k _ => ?_
  have hL : lidx_main_v22 (ix2 p n) k = ix2 p k := by
    funext a
    match a with
    | ⟨0, _⟩ => rfl
    | ⟨1, _⟩ => rfl
  have hR : ridx_main_v22 (ix2 p n) k = ix2 k n := by
    funext a
    match a with
    | ⟨0, _⟩ => rfl
    | ⟨1, _⟩ => rfl
  rw [hL, hR, weight_apply]

/-- The reference's result is the specification of its arguments. -/
theorem ref_eq (x0 : (⟨S512x4096, .f32⟩ : BufTy).Contents (Elt Ideal)) (x1 : (⟨S8192x1024, .i32⟩ : BufTy).Contents (Elt Ideal))
    (x2 x3 : (⟨S8192, .f32⟩ : BufTy).Contents (Elt Ideal)) :
    val_main_v25 (F := Ideal) x0 x1 x2 x3 = G x0 x1 x2 x3 := by
  funext i
  obtain ⟨p, n, rfl⟩ : ∃ (p : Fin 512) (n : Fin 8192), i = ix2 p n := ⟨i 0, i 1, eq_ix2 i⟩
  exact ref_at x0 x1 x2 x3 p n

end Cert.RefSide

end
-- ==== Proof.Finite.lean ====
/-
  Finiteness read out of the precondition.

  The precondition says that |x| < +∞ holds at every index of the activations, of the scales and of the bias (three
  conjunctions over all indices, and-ed together). An extended real whose absolute value max(x, −x) is below +∞ is
  neither infinity, hence a real number.
-/
import proofs.«420459_j43112881717530_3_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace Cert.Finite

open Idealize.ShloMosaic Cert.Pre_finite_inputs

instance : Subsingleton S_.Idx := ⟨fun a b => funext fun d => d.elim0⟩

/-- An extended real whose absolute value compares below the float pattern of +∞ is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  have h1 : x ≠ ⊤ := ne_of_lt hlt.1
  have h2 : x ≠ ⊥ := by
    intro hx
    have := hlt.2
    rw [hx, EReal.neg_bot] at this
    exact lt_irrefl _ this
  exact ⟨x.toReal, (EReal.coe_toReal h1 h2).symm⟩

/-- Under the precondition the activations and the scales are real at every index. -/
theorem real_of_pre (a0 : FVec Ideal S512x4096 .f32) (a1 : IVec S8192x1024 32) (a2 a3 : FVec Ideal S8192 .f32)
    (h : fn (F := Ideal) a0 a1 a2 a3 = fun _ => 1#1) :
    (∀ i, ∃ r : ℝ, a0 i = (r : EReal)) ∧ (∀ i, ∃ r : ℝ, a2 i = (r : EReal)) := by
  have h0 := congrFun h ValueIdx.ix0
  dsimp only [fn] at h0
  obtain ⟨h01, -⟩ := IntOp.andi_eq_one.mp h0
  obtain ⟨hx, hα⟩ := IntOp.andi_eq_one.mp h01
  exact ⟨fun i => real_of_abs_lt_inf _ (Host.reduce_andi_all _ _ _ _ _ hx i),
    fun i => real_of_abs_lt_inf _ (Host.reduce_andi_all _ _ _ _ _ hα i)⟩

end Cert.Finite

end
-- ==== Proof.lean ====
/-
  An int2 (ternary) weight-only matmul against its plain formulation, over the extended reals.

  Inputs: activations x [512, 4096], packed weights w [8192, 1024] (each word four two-bit codes: code 0 is −1,
  code 2 is +1, codes 1 and 3 are 0), per-row scales α [8192] and biases β [8192]. Both programs compute
      out[p, n] = Σ_k x[p, k] · (wt[n, k] · α[n]) + β[n],      wt[n, 4 kp + j] = the weight of code j of w[n, kp].

  The reference unpacks and scales the whole weight matrix and multiplies once. The kernel permutes the activations'
  columns so that the four code planes are contiguous, and at each of 16 grid points (512 output columns each)
  accumulates four partial products, one per plane, decoding the plane's weights by a low-bit test; it applies the
  scale to the accumulated sum and adds the bias. The two agree because the sum over the 4096 features regroups into
  the four planes and, the activations and scales being finite (the precondition), the scale distributes over the
  sum. The precondition is used exactly there: on the extended reals a factor does not distribute over a sum that
  mixes infinities.

  The specification and the regrouping law are in Spec.lean, the two decodings of a code in Ternary.lean, the
  reference's reading in RefSide.lean, the kernel body's arithmetic in Payload.lean and BlockValue.lean, the
  assembly of the sixteen blocks into the result array in KernelValue.lean, finiteness in Finite.lean.
  The idealization rewrote nothing, so its soundness statement is trivial.
-/
import proofs.«420459_j43112881717530_3_alg».proof.Defs
import proofs.«420459_j43112881717530_3_alg».proof.Proof.Gen.Kernel
import proofs.«420459_j43112881717530_3_alg».proof.Proof.Gen.Kernel.Skeleton
import proofs.«420459_j43112881717530_3_alg».proof.Proof.Gen.Kernel.Launch
import proofs.«420459_j43112881717530_3_alg».proof.Proof.Gen.Kernel.Points
import proofs.«420459_j43112881717530_3_alg».proof.Proof.Gen.Kernel.Frame
import proofs.«420459_j43112881717530_3_alg».proof.Proof.Gen.KernelIdeal
import proofs.«420459_j43112881717530_3_alg».proof.Proof.Gen.KernelIdeal.Skeleton
import proofs.«420459_j43112881717530_3_alg».proof.Proof.Gen.KernelIdeal.Launch
import proofs.«420459_j43112881717530_3_alg».proof.Proof.Gen.KernelIdeal.Points
import proofs.«420459_j43112881717530_3_alg».proof.Proof.Gen.KernelIdeal.Frame
import proofs.«420459_j43112881717530_3_alg».proof.Proof.Gen.ReferenceIdeal
import proofs.«420459_j43112881717530_3_alg».proof.Proof.Gen.Pre_finite_inputs
import proofs.«420459_j43112881717530_3_alg».proof.Proof.Gen.KernelIdeal.Value
import proofs.«420459_j43112881717530_3_alg».proof.Proof.Gen.ReferenceIdeal.Run
import proofs.«420459_j43112881717530_3_alg».proof.Proof.Gen.ReferenceIdeal.Read
import proofs.«420459_j43112881717530_3_alg».proof.Proof.KernelValue
import proofs.«420459_j43112881717530_3_alg».proof.Proof.RefSide
import proofs.«420459_j43112881717530_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over finite inputs both programs end with the specification of their (equal) arguments in the result array. -/
theorem algebraic : Cert.algebraic_KernelIdeal_ReferenceIdeal := by
  intro m ρ m' ρ' hpre hagree
  have hfin : ∀ c : Dev Cert.KernelIdeal.nD,
      (∀ i, ∃ r : ℝ, m ((c : Thread Cert.KernelIdeal.nD Cert.KernelIdeal.τ).loc Cert.KernelIdeal.main_arg0) i = (r : EReal))
      ∧ (∀ i, ∃ r : ℝ, m ((c : Thread Cert.KernelIdeal.nD Cert.KernelIdeal.τ).loc Cert.KernelIdeal.main_arg2) i = (r : EReal)) :=
    fun c => Cert.Finite.real_of_pre _ _ _ _ (hpre c)
  refine ⟨fun c => Cert.KernelSide.result m c, Cert.KernelSide.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.RefSide.ref_eq, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
